-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  reducesTo_S_S_d : S_.ReducesTo [] S_

variable [Facts]

def fn {F : FTy → Type} [FloatOps F] (main_arg0 : FVec F S8192x2048 .f32) (main_arg1 : FVec F S8192x2048 .f32) (main_arg2 : FVec F S_ .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8192x2048 : Shape := ⟨2, ![8192, 2048]⟩
abbrev S_ : Shape := ⟨0, ![]⟩
abbrev S1x8192 : Shape := ⟨2, ![1, 8192]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩
abbrev S1x1 : Shape := ⟨2, ![1, 1]⟩
abbrev S8192x8192 : Shape := ⟨2, ![8192, 8192]⟩
abbrev S512x2048 : Shape := ⟨2, ![512, 2048]⟩
abbrev S512x8192 : Shape := ⟨2, ![512, 8192]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S1x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1x1024, .f32⟩
  | .local _ .vmem, ⟨4, _⟩ => ⟨S512x2048, .f32⟩
  | .local _ .vmem, ⟨5, _⟩ => ⟨S512x2048, .f32⟩
  | .local _ .vmem, ⟨6, _⟩ => ⟨S1x8192, .f32⟩
  | .local _ .vmem, ⟨7, _⟩ => ⟨S1x1, .f32⟩
  | .local _ .vmem, ⟨8, _⟩ => ⟨S512x8192, .f32⟩
  | .local _ .vmem, ⟨9, _⟩ => ⟨S512x8192, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S_S1x1 : S_.ShapeCasts S1x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S512x1_S512x8192 : S512x1.Broadcasts S512x8192
  broadcasts_S1x8192_S512x8192 : S1x8192.Broadcasts S512x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x8192_S512x8192_0_0 : ∀ a, (![0, 0] : Fin 2 → Nat) a + S512x8192.size a ≤ S512x8192.size a
  h_S512x8192 : 0 < S512x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x8192.size a ≤ S8192x8192.size a
  hwx1_3 : ∀ i : grid1.Coords, EltTy.bits .f32 = 32 ∨ (Rect.block (s := S8192x8192) S512x8192.size (cc1_transform_3 i) (hinb1_3 i)).WholeWords (EltTy.packing .f32)

variable [Facts₀]

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)

variable [Facts₀]

class Facts : Prop extends Facts₀ where

variable [Facts]
-- ==== Proof.Spec.lean ====
/-
  The mathematics of the claim, with no program in sight.

  Both programs compute, for arrays `x, y : [8192, 2048]` and a scalar `ls`,
      out[n, m] = exp( -(mean x[n,:] - mean y[m,:])² / (2 · e^ls · e^ls) ),
  a row's mean being its sum divided by 2048.  The reference divides the negated square by
  `2 · e^ls · e^ls` (`G`); the kernel first forms the reciprocal `1 / (2 · e^ls · e^ls)` once, and then
  multiplies `0 - square` by it (`K`, stated over the row of means and the 1×1 reciprocal it is handed).
  On the extended reals the two agree as soon as `ls` is a real number: then `2 · e^ls · e^ls` is a nonzero
  real `s`, and division by a nonzero real IS multiplication by its reciprocal, at the infinities too
  (`Ideal.div_coe`), while `0 - z = -z` for every extended real `z`.  Nothing is asked of `x` and `y`:
  the means enter both sides through the same operations.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

abbrev SIn : Shape := ⟨2, ![8192, 2048]⟩
abbrev SRow : Shape := ⟨2, ![1, 8192]⟩
abbrev SOut : Shape := ⟨2, ![8192, 8192]⟩
abbrev SOne : Shape := ⟨2, ![1, 1]⟩
abbrev S0 : Shape := ⟨0, ![]⟩

/-- The mean of row `n`: the row's sum divided by the value of the pattern of `2048.0`. -/
def rowMean (a : SIn.Idx → EReal) (n : Fin 8192) : EReal :=
  Ideal.div (∑ k : Fin 2048, a (ix2 n k)) (Ideal.ofBits .f32 0x45000000#32)

/-- The row means laid out as one row `[1, 8192]`. -/
def meanRow (a : SIn.Idx → EReal) : SRow.Idx → EReal := fun j => rowMean a ⟨(j 1).val, idx2_lt1 j⟩

theorem meanRow_apply (a : SIn.Idx → EReal) (q : Fin 8192) : meanRow a (ix2 (0 : Fin 1) q) = rowMean a q := rfl

/-- `2 · e^ls · e^ls`, associated as both programs associate it. -/
def twoSigmaSq (ls : S0.Idx → EReal) : EReal :=
  (Ideal.ofBits .f32 0x40000000#32 * Ideal.exp (ls ix0)) * Ideal.exp (ls ix0)

/-- The reciprocal `1 / (2 · e^ls · e^ls)` as a `[1, 1]` array. -/
def invScale (ls : S0.Idx → EReal) : SOne.Idx → EReal :=
  fun _ => Ideal.div (Ideal.ofBits .f32 0x3F800000#32) (twoSigmaSq ls)

/-- The reference's form of the result at row `n`, column `m`. -/
def Gnm (x y : SIn.Idx → EReal) (ls : S0.Idx → EReal) (n m : Fin 8192) : EReal :=
  Ideal.exp (Ideal.div (-((rowMean x n - rowMean y m) * (rowMean x n - rowMean y m))) (twoSigmaSq ls))

/-- The reference's form of the result, as an array. -/
def G (x y : SIn.Idx → EReal) (ls : S0.Idx → EReal) : SOut.Idx → EReal := fun i =>
  Gnm x y ls ⟨(i 0).val, idx2_lt0 i⟩ ⟨(i 1).val, idx2_lt1 i⟩

theorem G_apply (x y : SIn.Idx → EReal) (ls : S0.Idx → EReal) (n m : Fin 8192) : G x y ls (ix2 n m) = Gnm x y ls n m := rfl

/-- The kernel's form of the result at row `n`, column `m`, over the row of means `my` and the 1×1 reciprocal `inv` it reads. -/
def Knm (x : SIn.Idx → EReal) (my : SRow.Idx → EReal) (inv : SOne.Idx → EReal) (n m : Fin 8192) : EReal :=
  Ideal.exp ((0 - (rowMean x n - my (ix2 (0 : Fin 1) m)) * (rowMean x n - my (ix2 (0 : Fin 1) m)))
    * inv (ix2 (0 : Fin 1) (0 : Fin 1)))

/-- The kernel's form of the result, as an array. -/
def K (x : SIn.Idx → EReal) (my : SRow.Idx → EReal) (inv : SOne.Idx → EReal) : SOut.Idx → EReal := fun i =>
  Knm x my inv ⟨(i 0).val, idx2_lt0 i⟩ ⟨(i 1).val, idx2_lt1 i⟩

theorem K_apply (x : SIn.Idx → EReal) (my : SRow.Idx → EReal) (inv : SOne.Idx → EReal) (n m : Fin 8192) :
    K x my inv (ix2 n m) = Knm x my inv n m := rfl

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- For a real `ls` the scale `2 · e^ls · e^ls` is a positive real. -/
theorem twoSigmaSq_coe (ls : S0.Idx → EReal) (r : ℝ) (hr : ls ix0 = (r : EReal)) :
    twoSigmaSq ls = ((2 * Real.exp r * Real.exp r : ℝ) : EReal) := by
  unfold twoSigmaSq
  rw [hr, ofBits_two, Ideal.exp_coe, EReal.coe_mul, EReal.coe_mul]

/-- THE LAW: with `ls` real, multiplying `0 - d²` by the reciprocal of the scale is dividing `-d²` by the scale. -/
theorem K_eq_G (x y : SIn.Idx → EReal) (ls : S0.Idx → EReal) (r : ℝ) (hr : ls ix0 = (r : EReal)) :
    K x (meanRow y) (invScale ls) = G x y ls := by
  funext i
  obtain ⟨n, q, rfl⟩ : ∃ (n q : Fin 8192), i = ix2 n q := ⟨i 0, i 1, eq_ix2 i⟩
  have hne : (2 * Real.exp r * Real.exp r : ℝ) ≠ 0 := by positivity
  rw [K_apply, G_apply]
  unfold Knm Gnm invScale
  rw [meanRow_apply, twoSigmaSq_coe ls r hr, Ideal.div_coe hne, Ideal.div_coe hne, ofBits_one, one_mul, zero_sub]

end Cert.Spec

end
-- ==== Proof.RefValue.lean ====
/-
  The reference's result, read index by index: at row `n`, column `q` it is
  `exp( -(mean x[n,:] - mean y[q,:])² / (2 · e^ls · e^ls) )`, the specification's `G`.
  Each stage of the reference is read at an index from its operands at an index; the two chains of
  broadcasts bring `(n, q)` back to row `n` of `x` and row `q` of `y`, and the host's sum is its
  initial value `0` plus the row's sum.
-/
import proofs.«418562_j21260088115410_3_alg».proof.Proof.Gen.ReferenceIdeal.Read
import proofs.«418562_j21260088115410_3_alg».proof.Proof.Spec

noncomputable section

namespace Cert.RefValue

open Cert.ReferenceIdeal Cert.ReferenceIdeal.Gen Cert.ReferenceIdeal.Read
open Idealize.ShloMosaic Idealize.ShloMosaic.TcCoe Idealize.ShloMosaic.ValueIdx
open scoped BigOperators

/-- The broadcast of `x`'s row means, at `(n, q)`, is the mean of row `n`. -/
theorem mean_x_at (x0 : (⟨S8192x2048, .f32⟩ : BufTy).Contents (Elt Ideal)) (n q : Fin 8192) :
    val_main_v8 (F := Ideal) x0 (ix2 n q) = Cert.Spec.rowMean x0 n := by
  rw [val_main_v8_apply, val_main_v6_apply, val_main_v2_apply, val_main_v0_apply, val_main_v1_apply,
    val_main_cst_0_apply, val_main_cst_apply]
  simp only [Ideal.hostDivf_def, Ideal.ofBits_def, Ideal.ofBits_zero_f32, zero_add]
  unfold Cert.Spec.rowMean
  refine congrArg (Ideal.div · _) (Finset.sum_congr rfl fun k _ => congrArg x0 ?_)
  funext a
  match a with
  | ⟨0, _⟩ => rfl
  | ⟨1, _⟩ => rfl

/-- The broadcast of `y`'s row means, at `(n, q)`, is the mean of row `q`. -/
theorem mean_y_at (x1 : (⟨S8192x2048, .f32⟩ : BufTy).Contents (Elt Ideal)) (n q : Fin 8192) :
    val_main_v9 (F := Ideal) x1 (ix2 n q) = Cert.Spec.rowMean x1 q := by
  rw [val_main_v9_apply, val_main_v7_apply, val_main_v5_apply, val_main_v3_apply, val_main_v4_apply,
    val_main_cst_2_apply, val_main_cst_1_apply]
  simp only [Ideal.hostDivf_def, Ideal.ofBits_def, Ideal.ofBits_zero_f32, zero_add]
  unfold Cert.Spec.rowMean
  refine congrArg (Ideal.div · _) (Finset.sum_congr rfl fun k _ => congrArg x1 ?_)
  funext a
  match a with
  | ⟨0, _⟩ => rfl
  | ⟨1, _⟩ => rfl

/-- The broadcast scale, at any index, is `2 · e^ls · e^ls`. -/
theorem scale_at (x2 : (⟨S_, .f32⟩ : BufTy).Contents (Elt Ideal)) (i : S8192x8192.Idx) :
    val_main_v16 (F := Ideal) x2 i = Cert.Spec.twoSigmaSq x2 := by
  rw [val_main_v16_apply, val_main_v15_apply, val_main_v14_apply, val_main_v12_apply, val_main_cst_3_apply]
  simp only [Ideal.mulf_def, Ideal.hostUnary_exp_def, Ideal.ofBits_def]
  unfold Cert.Spec.twoSigmaSq
  rw [eq_ix0 (idx_main_v16 i)]

/-- THE REFERENCE IS `G`. -/
theorem ref_eq_G (x0 x1 : (⟨S8192x2048, .f32⟩ : BufTy).Contents (Elt Ideal)) (x2 : (⟨S_, .f32⟩ : BufTy).Contents (Elt Ideal)) :
    val_main_v18 (F := Ideal) x0 x1 x2 = Cert.Spec.G x0 x1 x2 := by
  funext i
  obtain ⟨n, q, rfl⟩ : ∃ (n q : Fin 8192), i = ix2 n q := ⟨i 0, i 1, eq_ix2 i⟩
  rw [Cert.Spec.G_apply, val_main_v18_apply, val_main_v17_apply, val_main_v13_apply, val_main_v11_apply, val_main_v10_apply,
    mean_x_at, mean_y_at, scale_at]
  simp only [Ideal.hostUnary_exp_def, Ideal.hostDivf_def, Ideal.hostNegf_def, Ideal.negf_def, Ideal.mulf_def, Ideal.subf_def]
  rfl

end Cert.RefValue

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Region0.lean ====
/-
  The first region: the row means of `y`, laid out as one row.

  Grid point `t` (of 8) reads rows `1024 t … 1024 t + 1023` of `y`, sums each row, divides by 2048, turns the
  column of 1024 means into a row and writes it to columns `1024 t … 1024 t + 1023` of the `[1, 8192]` result.
  So entry `(0, 1024 t + p)` of the result is the mean of row `1024 t + p` of `y`; the eight blocks tile the row
  (column `q` lies in block `q / 1024`), and the array ends as the row of all 8192 means.
-/
import proofs.«418562_j21260088115410_3_alg».proof.Proof.Gen.KernelIdeal.Frame
import proofs.«418562_j21260088115410_3_alg».proof.Proof.Spec
import proofs.«418562_j21260088115410_3_alg».proof.Proof.LibKeepdims
import Idealize.ShloMosaic.Lib.Pipeline.Value
import Idealize.ShloMosaic.Lib.ValueLayout

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-- What the body stores, at column `p` of its `[1, 1024]` block: the mean of row `p` of the `[1024, 2048]` block it loaded. -/
theorem pay_at (x0 : Vec Ideal S1024x2048 .f32) (p : Fin 1024) :
    k0_pay1 (F := Ideal) x0 (ix2 (0 : Fin 1) p)
      = Ideal.div (∑ k : Fin 2048, x0 (ix2 p k)) (Ideal.ofBits .f32 0x45000000#32) := by
  unfold k0_pay1
  dsimp only
  refine (transpose_ix2_apply (a := 1024) (b := 1) _ _ (0 : Fin 1) p).trans ?_
  refine (divf_apply _ _ _).trans ?_
  refine congrArg₂ Ideal.div ?_ rfl
  refine (shapeCast_a_a1_apply (a := 1024) _ _ p (0 : Fin 1)).trans ?_
  exact multiReduction_add_rows_apply (a := 1024) (b := 2048) x0 _ _ _ _ p

/-- The same over the array the block was cut from: if the loaded block is rows `1024 t …` of `A`, the stored entry at column
    `p` is the mean of row `1024 t + p` of `A`. -/
theorem block_mean (x0 : Vec Ideal S1024x2048 .f32) (A : Cert.Spec.SIn.Idx → EReal) (tv : ℕ) (ht : tv < 8)
    (hx : ∀ (p : Fin 1024) (k : Fin 2048), x0 (ix2 p k) = A (ix2 (⟨tv * 1024 + p.val, by omega⟩ : Fin 8192) k))
    (p : Fin 1024) :
    k0_pay1 (F := Ideal) x0 (ix2 (0 : Fin 1) p) = Cert.Spec.rowMean A (⟨tv * 1024 + p.val, by omega⟩ : Fin 8192) := by
  rw [pay_at]
  unfold Cert.Spec.rowMean
  exact congrArg (Ideal.div · _) (Finset.sum_congr rfl fun k _ => hx p k)

variable (V : (c : Dev nD) → (b : Ref sig .tc) → Buf (Elt Ideal) ((c : Thread nD τ).loc b))

/-- The index maps over the grid: the input's block index is `(t, 0)`, the output's `(0, t)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- WHAT POINT `t` WRITES BACK is block `t` of the row of means. -/
theorem flushed_eq (c : Dev nD) (t : Fin cfg0.N) :
    (dat0 V c).flushed 1 t = ((cfg0.win 1).blk t).view.read (Elt Ideal) (Cert.Spec.meanRow (V c main_arg1)) := by
  show (cfg0.win 1).cut (grid0.coords t) ((dat0 V c).after 1 t) = _
  rw [after0_1]
  unfold out0_1
  rw [View.canon_unit_zero hz]
  simp only [View.ld_unit_zero (S := S1024x2048) hz]
  funext j
  have hj0 : (j 0).val < 1 := (j 0).isLt
  have hj1 : (j 1).val < 1024 := (j 1).isLt
  obtain ⟨e0, e1, e2, e3⟩ := idx_facts t
  have ht : t.val < 8 := by have := t.isLt; have hN : cfg0.N = 8 := N_0; omega
  show k0_pay1 (F := Ideal) (iblk0 V c 0 t) ((win0 1).xinj (grid0.coords t) j)
    = Cert.Spec.meanRow (V c main_arg1) (((cfg0.win 1).blk t).view.emb j)
  have hL : (win0 1).xinj (grid0.coords t) j = ix2 (0 : Fin 1) (⟨(j 1).val, hj1⟩ : Fin 1024) :=
    funext fun a => Fin.ext (by
      match a with
      | ⟨0, _⟩ => show (j 0).val = 0; omega
      | ⟨1, _⟩ => rfl)
  have hR : ((cfg0.win 1).blk t).view.emb j = ix2 (0 : Fin 1) (⟨t.val * 1024 + (j 1).val, by omega⟩ : Fin 8192) :=
    funext fun a => Fin.ext (by
      match a with
      | ⟨0, _⟩ => show win0_1.index t (0 : Fin 2) * 1 + 1 * (j 0).val = 0; omega
      | ⟨1, _⟩ => show win0_1.index t (1 : Fin 2) * 1024 + 1 * (j 1).val = t.val * 1024 + (j 1).val; omega)
  rw [hL, hR, Cert.Spec.meanRow_apply]
  refine block_mean (iblk0 V c 0 t) (V c main_arg1) t.val ht (fun p k => ?_) (⟨(j 1).val, hj1⟩ : Fin 1024)
  show V c main_arg1 (((cfg0.win 0).blk t).view.emb (ix2 p k)) = V c main_arg1 _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * k.val = k.val; omega

/-- An index of the row is in point `t`'s block iff its column is among the block's 1024. -/
theorem mem_blk (t : Fin cfg0.N) (i : S1x8192.Idx) :
    i ∈ ((cfg0.win 1).blk t).view.set ↔ ∀ a : Fin 2, win0_1.index t a * S1x1024.size a ≤ (i a).val ∧ (i a).val < win0_1.index t a * S1x1024.size a + S1x1024.size a := by
  show i ∈ ((View.whole main_v0).slice (win0_1.rect t)).set ↔ _
  rw [View.set_slice_whole, Rect.mem_set_unit]
  exact Iff.rfl

/-- THE ARRAY after the region: the row of all the means. -/
theorem final (c : Dev nD) : (dat0 V c).arrAt 1 cfg0.N = Cert.Spec.meanRow (V c main_arg1) :=
  (dat0 V c).arrAt_eq_of_cover 1 (Cert.Spec.meanRow (V c main_arg1)) (fun t _ => flushed_eq V c t) fun i => by
    have hi0 : (i 0).val < 1 := (i 0).isLt
    have hi1 : (i 1).val < 8192 := (i 1).isLt
    obtain ⟨t, ht⟩ : ∃ t : Fin cfg0.N, t.val = (i 1).val / 1024 :=
      ⟨⟨(i 1).val / 1024, by have hN : cfg0.N = 8 := N_0; omega⟩, rfl⟩
    refine ⟨t, flush0_1 t, ?_⟩
    rw [mem_blk]
    obtain ⟨e0, e1, e2, e3⟩ := idx_facts t
    intro a
    match a with
    | ⟨0, _⟩ => show win0_1.index t (0 : Fin 2) * 1 ≤ (i 0).val ∧ (i 0).val < win0_1.index t (0 : Fin 2) * 1 + 1; omega
    | ⟨1, _⟩ => show win0_1.index t (1 : Fin 2) * 1024 ≤ (i 1).val ∧ (i 1).val < win0_1.index t (1 : Fin 2) * 1024 + 1024; omega

end Cert.KernelIdeal.R0

end
-- ==== Proof.Region1.lean ====
/-
  The second region: the Gram matrix from the row means.

  Grid point `t` (of 16) reads rows `512 t … 512 t + 511` of `x`, the whole `[1, 8192]` row `my` and the `[1, 1]` scalar
  `inv`, and writes rows `512 t … 512 t + 511` of the `[8192, 8192]` result: at `(p, q)` of its block,
      exp( (0 - (mean of x's row 512 t + p  -  my[0, q])²) · inv[0, 0] ).
  The sixteen row blocks tile the result (row `n` lies in block `n / 512`), so the array ends as that function of
  `x`, `my` and `inv` at every `(n, q)`: the specification's `K`.
-/
import proofs.«418562_j21260088115410_3_alg».proof.Proof.Gen.KernelIdeal.Frame
import proofs.«418562_j21260088115410_3_alg».proof.Proof.Spec
import proofs.«418562_j21260088115410_3_alg».proof.Proof.LibKeepdims
import Idealize.ShloMosaic.Lib.Pipeline.Value
import Idealize.ShloMosaic.Lib.ValueLayout

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-- What the body stores at `(p, q)` of its `[512, 8192]` block, from the three blocks it loaded. -/
theorem pay_at (x0 : Vec Ideal S512x2048 .f32) (x1 : Vec Ideal S1x8192 .f32) (x2 : Vec Ideal S1x1 .f32) (p : Fin 512) (q : Fin 8192) :
    k1_pay1 (F := Ideal) x0 x1 x2 (ix2 p q)
      = Ideal.exp ((0 - (Ideal.div (∑ k : Fin 2048, x0 (ix2 p k)) (Ideal.ofBits .f32 0x45000000#32) - x1 (ix2 (0 : Fin 1) q))
            * (Ideal.div (∑ k : Fin 2048, x0 (ix2 p k)) (Ideal.ofBits .f32 0x45000000#32) - x1 (ix2 (0 : Fin 1) q)))
          * x2 (ix2 (0 : Fin 1) (0 : Fin 1))) := by
  unfold k1_pay1
  dsimp only
  refine (exp_apply _ _).trans (congrArg Ideal.exp ?_)
  refine (mulf_apply _ _ _).trans ?_
  -- the difference of the two broadcasts at (p, q): the row's mean minus the row of means at q
  have hd : ∀ (h7 : S512x1.Broadcasts S512x8192) (h8 : S1x8192.Broadcasts S512x8192) (h6 : S1x8192.ShapeCasts S1x8192)
      (v4 : FVec Ideal S512x1 .f32),
      v4 (ix2 p (0 : Fin 1)) = Ideal.div (∑ k : Fin 2048, x0 (ix2 p k)) (Ideal.ofBits .f32 0x45000000#32) →
      subf (broadcastTo S512x8192 v4 h7) (broadcastTo S512x8192 (shapeCast S1x8192 x1 h6) h8) (ix2 p q)
        = Ideal.div (∑ k : Fin 2048, x0 (ix2 p k)) (Ideal.ofBits .f32 0x45000000#32) - x1 (ix2 (0 : Fin 1) q) := by
    intro h7 h8 h6 v4 hv4
    refine (subf_apply _ _ _).trans ?_
    refine congrArg₂ (· - ·) ?_ ?_
    · exact (broadcastTo_a1_ab_apply (a := 512) (b := 8192) v4 h7 p q).trans hv4
    · refine (broadcastTo_1b_ab_apply (a := 512) (b := 8192) _ h8 p q).trans ?_
      rw [shapeCast_self]
  have hv4 : divf (shapeCast S512x1 (multiReduction .add [1] S512 x0 0x00000000#32 reduces_S512x2048_S512 (.inl rfl) rfl) shapeCasts_S512_S512x1)
        (broadcast S512x1 (Scalar.ofBits (F := Ideal) .f32 0x45000000#32)) (ix2 p (0 : Fin 1))
      = Ideal.div (∑ k : Fin 2048, x0 (ix2 p k)) (Ideal.ofBits .f32 0x45000000#32) := by
    refine (divf_apply _ _ _).trans ?_
    refine congrArg₂ Ideal.div ?_ rfl
    refine (shapeCast_a_a1_apply (a := 512) _ _ p (0 : Fin 1)).trans ?_
    exact multiReduction_add_rows_apply (a := 512) (b := 2048) x0 _ _ _ _ p
  refine congrArg₂ (· * ·) ?_ ?_
  · refine (subf_apply _ _ _).trans ?_
    refine congrArg₂ (· - ·) Ideal.ofBits_zero_f32 ?_
    refine (mulf_apply _ _ _).trans ?_
    rw [hd _ _ _ _ hv4]
  · exact extractAt_11 x2 _

/-- The same over the arrays the blocks were cut from. -/
theorem block_val (x0 : Vec Ideal S512x2048 .f32) (x1 : Vec Ideal S1x8192 .f32) (x2 : Vec Ideal S1x1 .f32)
    (A : Cert.Spec.SIn.Idx → EReal) (my : Cert.Spec.SRow.Idx → EReal) (inv : Cert.Spec.SOne.Idx → EReal) (tv : ℕ) (ht : tv < 16)
    (hx0 : ∀ (p : Fin 512) (k : Fin 2048), x0 (ix2 p k) = A (ix2 (⟨tv * 512 + p.val, by omega⟩ : Fin 8192) k))
    (hx1 : ∀ q : Fin 8192, x1 (ix2 (0 : Fin 1) q) = my (ix2 (0 : Fin 1) q))
    (hx2 : x2 (ix2 (0 : Fin 1) (0 : Fin 1)) = inv (ix2 (0 : Fin 1) (0 : Fin 1)))
    (p : Fin 512) (q : Fin 8192) :
    k1_pay1 (F := Ideal) x0 x1 x2 (ix2 p q) = Cert.Spec.Knm A my inv (⟨tv * 512 + p.val, by omega⟩ : Fin 8192) q := by
  rw [pay_at, hx1 q, hx2]
  unfold Cert.Spec.Knm Cert.Spec.rowMean
  have hs : (∑ k : Fin 2048, x0 (ix2 p k)) = ∑ k : Fin 2048, A (ix2 (⟨tv * 512 + p.val, by omega⟩ : Fin 8192) k) :=
    Finset.sum_congr rfl fun k _ => hx0 p k
  rw [hs]

variable (V : (c : Dev nD) → (b : Ref sig .tc) → Buf (Elt Ideal) ((c : Thread nD τ).loc b))

/-- The index maps over the grid: `x`'s and the result's block index is `(t, 0)`, the row's and the scalar's `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `K` of the three arrays as the region finds them. -/
theorem flushed_eq (c : Dev nD) (t : Fin cfg1.N) :
    (dat1 V c).flushed 3 t = ((cfg1.win 3).blk t).view.read (Elt Ideal)
      (Cert.Spec.K (V c main_arg0) (V c main_v0) (V c main_v5)) := by
  show (cfg1.win 3).cut (grid1.coords t) ((dat1 V c).after 3 t) = _
  rw [after1_3]
  unfold out1_3
  rw [View.canon_unit_zero hz]
  simp only [View.ld_unit_zero (S := S512x2048) hz, View.ld_unit_zero (S := S1x8192) hz, View.ld_unit_zero (S := S1x1) hz]
  funext j
  have hj0 : (j 0).val < 512 := (j 0).isLt
  have hj1 : (j 1).val < 8192 := (j 1).isLt
  obtain ⟨e0, e1, e2, e3, e4, e5, e6, e7⟩ := idx_facts t
  have ht : t.val < 16 := by have := t.isLt; have hN : cfg1.N = 16 := N_1; omega
  show k1_pay1 (F := Ideal) (iblk1 V c 0 t) (iblk1 V c 1 t) (iblk1 V c 2 t) ((win1 3).xinj (grid1.coords t) j)
    = Cert.Spec.K (V c main_arg0) (V c main_v0) (V c main_v5) (((cfg1.win 3).blk t).view.emb j)
  have hL : (win1 3).xinj (grid1.coords t) j = ix2 (⟨(j 0).val, hj0⟩ : Fin 512) (⟨(j 1).val, hj1⟩ : Fin 8192) :=
    funext fun a => Fin.ext (by
      match a with
      | ⟨0, _⟩ => rfl
      | ⟨1, _⟩ => rfl)
  have hR : ((cfg1.win 3).blk t).view.emb j = ix2 (⟨t.val * 512 + (j 0).val, by omega⟩ : Fin 8192) (⟨(j 1).val, hj1⟩ : Fin 8192) :=
    funext fun a => Fin.ext (by
      match a with
      | ⟨0, _⟩ => show win1_3.index t (0 : Fin 2) * 512 + 1 * (j 0).val = t.val * 512 + (j 0).val; omega
      | ⟨1, _⟩ => show win1_3.index t (1 : Fin 2) * 8192 + 1 * (j 1).val = (j 1).val; omega)
  rw [hL, hR, Cert.Spec.K_apply]
  refine block_val (iblk1 V c 0 t) (iblk1 V c 1 t) (iblk1 V c 2 t) (V c main_arg0) (V c main_v0) (V c main_v5) t.val ht
    (fun p k => ?_) (fun q => ?_) ?_ (⟨(j 0).val, hj0⟩ : Fin 512) (⟨(j 1).val, hj1⟩ : Fin 8192)
  · show V c main_arg0 (((cfg1.win 0).blk t).view.emb (ix2 p k)) = V c main_arg0 _
    refine congrArg _ (funext fun a => Fin.ext ?_)
    match a with
    | ⟨0, _⟩ => show win1_0.index t (0 : Fin 2) * 512 + 1 * p.val = t.val * 512 + p.val; omega
    | ⟨1, _⟩ => show win1_0.index t (1 : Fin 2) * 2048 + 1 * k.val = k.val; omega
  · show V c main_v0 (((cfg1.win 1).blk t).view.emb (ix2 (0 : Fin 1) q)) = V c main_v0 _
    refine congrArg _ (funext fun a => Fin.ext ?_)
    match a with
    | ⟨0, _⟩ => show win1_1.index t (0 : Fin 2) * 1 + 1 * 0 = 0; omega
    | ⟨1, _⟩ => show win1_1.index t (1 : Fin 2) * 8192 + 1 * q.val = q.val; omega
  · show V c main_v5 (((cfg1.win 2).blk t).view.emb (ix2 (0 : Fin 1) (0 : Fin 1))) = V c main_v5 _
    refine congrArg _ (funext fun a => Fin.ext ?_)
    match a with
    | ⟨0, _⟩ => show win1_2.index t (0 : Fin 2) * 1 + 1 * 0 = 0; omega
    | ⟨1, _⟩ => show win1_2.index t (1 : Fin 2) * 1 + 1 * 0 = 0; omega

/-- An index of the result is in point `t`'s block iff its row is among the block's 512. -/
theorem mem_blk (t : Fin cfg1.N) (i : S8192x8192.Idx) :
    i ∈ ((cfg1.win 3).blk t).view.set ↔ ∀ a : Fin 2, win1_3.index t a * S512x8192.size a ≤ (i a).val ∧ (i a).val < win1_3.index t a * S512x8192.size a + S512x8192.size a := by
  show i ∈ ((View.whole main_v6).slice (win1_3.rect t)).set ↔ _
  rw [View.set_slice_whole, Rect.mem_set_unit]
  exact Iff.rfl

/-- THE ARRAY after the region: `K` of the three arrays as the region finds them. -/
theorem final (c : Dev nD) : (dat1 V c).arrAt 3 cfg1.N = Cert.Spec.K (V c main_arg0) (V c main_v0) (V c main_v5) :=
  (dat1 V c).arrAt_eq_of_cover 3 (Cert.Spec.K (V c main_arg0) (V c main_v0) (V c main_v5)) (fun t _ => flushed_eq V c t) fun i => by
    have hi0 : (i 0).val < 8192 := (i 0).isLt
    have hi1 : (i 1).val < 8192 := (i 1).isLt
    obtain ⟨t, ht⟩ : ∃ t : Fin cfg1.N, t.val = (i 0).val / 512 :=
      ⟨⟨(i 0).val / 512, by have hN : cfg1.N = 16 := N_1; omega⟩, rfl⟩
    refine ⟨t, flush1_3 t, ?_⟩
    rw [mem_blk]
    obtain ⟨e0, e1, e2, e3, e4, e5, e6, e7⟩ := idx_facts t
    intro a
    match a with
    | ⟨0, _⟩ => show win1_3.index t (0 : Fin 2) * 512 ≤ (i 0).val ∧ (i 0).val < win1_3.index t (0 : Fin 2) * 512 + 512; omega
    | ⟨1, _⟩ => show win1_3.index t (1 : Fin 2) * 8192 ≤ (i 1).val ∧ (i 1).val < win1_3.index t (1 : Fin 2) * 8192 + 8192; omega

end Cert.KernelIdeal.R1

end
-- ==== Proof.Bridge.lean ====
/-
  Between the regions: what the second region finds in each array it reads.

  • `x` is as launched: nothing before the second region writes it.
  • The `[1, 8192]` row is what the first region left — the row of `y`'s row means — since none of the scalar
    operations between the regions writes it.
  • The `[1, 1]` scalar is the chain `1 / ((2 · e^ls) · e^ls)` of the operations between the regions, applied to the
    launched `ls` (which the first region does not write), reshaped from rank 0 to `[1, 1]`: its one entry is that quotient.
  With these, the result array after the second region is the specification's `K` of the launched `x`, the row of means
  of the launched `y`, and the reciprocal scale of the launched `ls`.
-/
import proofs.«418562_j21260088115410_3_alg».proof.Proof.KernelRun
import proofs.«418562_j21260088115410_3_alg».proof.Proof.Region0
import proofs.«418562_j21260088115410_3_alg».proof.Proof.Region1
import Idealize.ShloMosaic.Lib.StableHlo.Run
import Idealize.ShloMosaic.PureOps.Ideal

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- `x` as the second region finds it is `x` as launched. -/
theorem entry_x (c : Dev nD) : V2 m ρ c main_arg0 = m ((c : Thread nD τ).loc main_arg0) :=
  (((W3_arr m ρ c 0).trans (((dat1 (V2 m ρ) c).arrAt_in 0 rfl _).trans (A_eq1 (V2 m ρ) c 0))).symm).trans (W3_main_arg0 m ρ c)

/-- The row the second region reads is the row of `y`'s row means. -/
theorem entry_my (c : Dev nD) : V2 m ρ c main_v0 = Cert.Spec.meanRow (m ((c : Thread nD τ).loc main_arg1)) := by
  have h1 : V2 m ρ c main_v0 = W1 m ρ c (Proc.devRef .tc main_v0) := by
    show StableHlo.after hostOps1 (W1 m ρ c) (Proc.devRef .tc main_v0) = _
    after_results
  rw [h1]
  exact (W1_arr m ρ c 1).trans (Cert.KernelIdeal.R0.final (V0 m ρ) c)

/-- The scalar the second region reads is the reciprocal of `2 · e^ls · e^ls`. -/
theorem entry_inv (c : Dev nD) : V2 m ρ c main_v5 = Cert.Spec.invScale (m ((c : Thread nD τ).loc main_arg2)) := by
  have h2 : W1 m ρ c (Proc.devRef .tc main_arg2) = m ((c : Thread nD τ).loc main_arg2) :=
    (W1_of_ne m ρ c main_arg2 (by decide)).trans rfl
  show StableHlo.after hostOps1 (W1 m ρ c) (Proc.devRef .tc main_v5) = _
  after_results
  rw [h2]
  funext i
  show shapeCast S1x1 (Host.divf (constant (F := Ideal) S_ .f32 0x3F800000#32)
      (mulf (mulf (constant (F := Ideal) S_ .f32 0x40000000#32) (Host.exp (m ((c : Thread nD τ).loc main_arg2))))
        (Host.exp (m ((c : Thread nD τ).loc main_arg2))))) shapeCasts_S_S1x1 i = _
  refine (shapeCast_apply _ shapeCasts_S_S1x1 i ix0 ?_).trans ?_
  · have hl : (S_.rowMajor ix0).val = 0 := Shape.rowMajorPi_zero _ _
    have hi0 : (i 0).val < 1 := (i 0).isLt
    have hi1 : (i 1).val < 1 := (i 1).isLt
    rw [hl, Shape.rowMajor_val_two]
    show 0 = (i 0).val * 1 + (i 1).val
    omega
  · rfl

/-- THE RESULT after the second region, from the launch memory. -/
theorem result_eq (c : Dev nD) : (dat1 (V2 m ρ) c).arrAt 3 cfg1.N
    = Cert.Spec.K (m ((c : Thread nD τ).loc main_arg0)) (Cert.Spec.meanRow (m ((c : Thread nD τ).loc main_arg1)))
        (Cert.Spec.invScale (m ((c : Thread nD τ).loc main_arg2))) := by
  rw [Cert.KernelIdeal.R1.final (V2 m ρ) c, entry_x m ρ c, entry_my m ρ c, entry_inv m ρ c]

end Cert.KernelIdeal.Bridge

end
-- ==== Proof.Finite.lean ====
/-
  What the precondition gives: the scalar `ls` is a real number.

  The precondition is the conjunction of three `all(|·| < +∞)` tests, one per input; its last conjunct is the test of the
  scalar input, a reduction by `and` over the one entry of a rank-0 array.  If `max ls (-ls) < +∞` then `ls` is neither
  `+∞` nor `-∞` (each makes the maximum `+∞`), so it is a real number.  (The tests of `x` and `y` are not needed.)
-/
import proofs.«418562_j21260088115410_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx

variable [hP : Cert.Pre_finite_inputs.Facts]

/-- The pattern of `+∞` denotes the top of the extended reals. -/
theorem ofBits_inf : Ideal.ofBits .f32 0x7F800000#32 = ⊤ := by
  simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  by_cases hb : x = ⊥
  · subst hb; simp [Ideal.cmp] at h
  by_cases ht : x = ⊤
  · subst ht; simp [Ideal.cmp] at h
  exact ⟨x.toReal, (EReal.coe_toReal ht hb).symm⟩

/-- Under the precondition the scalar input is a real number. -/
theorem ls_real (a0 a1 : FVec Ideal Cert.Pre_finite_inputs.S8192x2048 .f32) (a2 : FVec Ideal Cert.Pre_finite_inputs.S_ .f32)
    (h : Cert.Pre_finite_inputs.fn (F := Ideal) a0 a1 a2 = fun _ => 1#1) : ∃ r : ℝ, a2 ix0 = (r : EReal) := by
  have h0 := congrFun h ix0
  dsimp only [Cert.Pre_finite_inputs.fn] at h0
  have h1 := (IntOp.andi_eq_one.1 h0).2
  haveI : Subsingleton Cert.Pre_finite_inputs.S_.Idx := ⟨fun a b => funext fun d => d.elim0⟩
  have h2 := Host.reduce_andi_all _ _ _ _ _ h1 ix0
  have h3 : Ideal.cmp .olt (max (a2 ix0) (-(a2 ix0))) (Ideal.ofBits .f32 0x7F800000#32) = 1#1 := h2
  rw [ofBits_inf] at h3
  exact real_of_abs_lt_top _ h3

end Cert.Finite

end
-- ==== Proof.lean ====
/-
  The kernel — two pipelined regions around a few scalar operations — and its plain reference compute the same
  `[8192, 8192]` array over the extended reals:
      out[n, q] = exp( -(mean x[n,:] - mean y[q,:])² / (2 · e^ls · e^ls) ).

  • The reference, stage by stage, is the specification's `G` (Proof/RefValue.lean, over the generated read-at-an-index lemmas).
  • The kernel's first region leaves the row of `y`'s row means (Proof/Region0.lean); between the regions the scalar
    `1 / ((2 · e^ls) · e^ls)` is formed; the second region, from `x`, that row and that scalar, leaves the specification's
    `K` (Proof/Region1.lean, Proof/Bridge.lean).  The run with the result array named is Proof/KernelRun.lean.
  • `K = G` as soon as `ls` is a real number (Proof/Spec.lean): dividing by the nonzero real `2 · e^ls · e^ls` is
    multiplying by its reciprocal, and `0 - z = -z`.  That `ls` is real is what the precondition says of it (Proof/Finite.lean).
  The three frames are the generated ones (the reference's is its generated run with the result dropped); the idealization
  rewrote nothing, so there is nothing to preserve.
-/
import proofs.«418562_j21260088115410_3_alg».proof.Defs
import proofs.«418562_j21260088115410_3_alg».proof.Proof.Gen.Kernel
import proofs.«418562_j21260088115410_3_alg».proof.Proof.Gen.Kernel.Skeleton
import proofs.«418562_j21260088115410_3_alg».proof.Proof.Gen.Kernel.Launch
import proofs.«418562_j21260088115410_3_alg».proof.Proof.Gen.Kernel.Points
import proofs.«418562_j21260088115410_3_alg».proof.Proof.Gen.Kernel.Frame
import proofs.«418562_j21260088115410_3_alg».proof.Proof.Gen.KernelIdeal
import proofs.«418562_j21260088115410_3_alg».proof.Proof.Gen.KernelIdeal.Skeleton
import proofs.«418562_j21260088115410_3_alg».proof.Proof.Gen.KernelIdeal.Launch
import proofs.«418562_j21260088115410_3_alg».proof.Proof.Gen.KernelIdeal.Points
import proofs.«418562_j21260088115410_3_alg».proof.Proof.Gen.KernelIdeal.Frame
import proofs.«418562_j21260088115410_3_alg».proof.Proof.Gen.ReferenceIdeal
import proofs.«418562_j21260088115410_3_alg».proof.Proof.Gen.ReferenceIdeal.Run
import proofs.«418562_j21260088115410_3_alg».proof.Proof.Gen.ReferenceIdeal.Read
import proofs.«418562_j21260088115410_3_alg».proof.Proof.Gen.Pre_finite_inputs
import proofs.«418562_j21260088115410_3_alg».proof.Proof.Spec
import proofs.«418562_j21260088115410_3_alg».proof.Proof.RefValue
import proofs.«418562_j21260088115410_3_alg».proof.Proof.KernelRun
import proofs.«418562_j21260088115410_3_alg».proof.Proof.Bridge
import proofs.«418562_j21260088115410_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) arguments: the kernel's at `K`, which is `G` because the
    precondition makes `ls` real; the reference's at its stages' composition, which is `G`. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun s h c => ?_) (Cert.KernelIdeal.Run.run_named (F := Ideal) m ρ)
    obtain ⟨r, hr⟩ := Cert.Finite.ls_real _ _ _ (hpre c)
    exact ⟨(h c).1.trans ((Cert.KernelIdeal.Bridge.result_eq m ρ c).trans (Cert.Spec.K_eq_G _ _ _ r hr)), (h c).2⟩
  · refine (θ_run Cert.ReferenceIdeal.defs _ _).mono (fun s h c => ⟨(h c).1.trans ?_, (h c).2⟩)
      (Cert.ReferenceIdeal.Value.run (F := Ideal) m' ρ')
    rw [Cert.ReferenceIdeal.Read.val_main_v18_eq, Cert.RefValue.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
